-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x2048 : Shape := ⟨3, ![8, 2048, 2048]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x2048x512 .f32) (main_arg1 : FVec F S8x2048x2048 .f32) (main_arg2 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S8x2048x512 : Shape := ⟨3, ![8, 2048, 512]⟩
abbrev S8x2048x2048 : Shape := ⟨3, ![8, 2048, 2048]⟩
abbrev S512x512 : Shape := ⟨2, ![512, 512]⟩
abbrev S_ : Shape := ⟨0, ![]⟩
abbrev S8x2048 : Shape := ⟨2, ![8, 2048]⟩
abbrev S8x2048x1 : Shape := ⟨3, ![8, 2048, 1]⟩
abbrev S1x256x2048 : Shape := ⟨3, ![1, 256, 2048]⟩
abbrev S1x2048x512 : Shape := ⟨3, ![1, 2048, 512]⟩
abbrev S1x256x1 : Shape := ⟨3, ![1, 256, 1]⟩
abbrev S1x256x512 : Shape := ⟨3, ![1, 256, 512]⟩
abbrev S256x2048 : Shape := ⟨2, ![256, 2048]⟩
abbrev S2048x512 : Shape := ⟨2, ![2048, 512]⟩
abbrev S256x512 : Shape := ⟨2, ![256, 512]⟩
abbrev S256x1 : Shape := ⟨2, ![256, 1]⟩

abbrev nBuf : Space → Nat
  | .hbm => 15
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S512x512, .f32⟩
  | .hbm, ⟨3, _⟩ => ⟨S_, .f32⟩
  | .hbm, ⟨4, _⟩ => ⟨S8x2048x512, .f32⟩
  | .hbm, ⟨5, _⟩ => ⟨S8x2048x512, .i1⟩
  | .hbm, ⟨6, _⟩ => ⟨S8x2048x512, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .i1⟩
  | .hbm, ⟨13, _⟩ => ⟨S8x2048x1, .f32⟩
  | .hbm, ⟨14, _⟩ => ⟨S8x2048x512, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S1x256x1, .f32⟩
  | .local _ .vmem, ⟨6, _⟩ => ⟨S1x256x1, .f32⟩
  | .local _ .vmem, ⟨7, _⟩ => ⟨S1x256x512, .f32⟩
  | .local _ .vmem, ⟨8, _⟩ => ⟨S1x256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x2048x512 : S_.BroadcastsInDim S8x2048x512 (![] : Fin 0 → Fin S8x2048x512.rank)
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x512 : S256x1.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x2048_S2048x512_S256x512_1_0_0_1_n_n_wf : DotDims.WF S256x2048 S2048x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S8x2048x1.size a
  hwx0_3 : ∀ i : grid0.Coords, EltTy.bits .f32 = 32 ∨ (Rect.block (s := S8x2048x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S8x2048x512.size a
  hwx0_4 : ∀ i : grid0.Coords, EltTy.bits .f32 = 32 ∨ (Rect.block (s := S8x2048x512) S1x256x512.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S512x512 : Shape := ⟨2, ![512, 512]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S512x512, .f32⟩
  | .hbm, ⟨3, _⟩ => ⟨S8x2048x512, .f32⟩
  | .hbm, ⟨4, _⟩ => ⟨S8x2048x512, .f32⟩
  | .hbm, ⟨5, _⟩ => ⟨S_, .f32⟩
  | .hbm, ⟨6, _⟩ => ⟨S8x2048x512, .f32⟩
  | .hbm, ⟨7, _⟩ => ⟨S8x2048x512, .f32⟩
  | .hbm, ⟨8, _⟩ => ⟨S_, .f32⟩
  | .hbm, ⟨9, _⟩ => ⟨S8x2048x512, .f32⟩
  | .hbm, ⟨10, _⟩ => ⟨S8x2048x512, .i1⟩
  | .hbm, ⟨11, _⟩ => ⟨S8x2048x512, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .i1⟩
  | .hbm, ⟨18, _⟩ => ⟨S8x2048x1, .f32⟩
  | .hbm, ⟨19, _⟩ => ⟨S8x2048x512, .f32⟩
  | .hbm, ⟨20, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S8x2048x512 : S_.BroadcastsInDim S8x2048x512 (![] : Fin 0 → Fin S8x2048x512.rank)
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  dot_S8x2048x2048_S8x2048x512_S8x2048x512_2_1_1_2_0_0_wf : DotDims.WF S8x2048x2048 S8x2048x512 S8x2048x512 [2] [1] [1] [2] [0] [0]
  dot_S8x2048x512_S512x512_S8x2048x512_2_0_01_1_n_n_wf : DotDims.WF S8x2048x512 S512x512 S8x2048x512 [2] [0] [0, 1] [1] [] []

variable [Facts₀]

def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf

class Facts : Prop extends Facts₀ where

variable [Facts]
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.GcnLayer.lean ====
/-
  One graph-convolution layer over the extended reals, entry by entry.

  For a batch b, a node n and an output feature d the layer first gathers the neighbours' features,
  t(b, n, f) = Σ_p a(b, n, p) · x(b, p, f), then mixes the features, o(b, n, d) = Σ_f t(b, n, f) · k(f, d),
  clips below at zero, and multiplies by the row's mask entry mask(b, n, 0) (one where the node's feature row has a
  non-zero entry, zero where the row is padding). The mask is a parameter here: both programs compute it by the
  same operations, so the entry never has to look inside it.

  Nothing in the formula is regrouped: the two programs differ only in how they cut the rows into tiles, so the
  statement needs no law of the extended reals beyond reading each product as its sum.
-/
import Idealize.ShloMosaic.PureOps.Ideal.Laws
import Idealize.ShloMosaic.Lib.ValueIdx

noncomputable section

namespace Cert.Gcn

open Idealize.ShloMosaic Idealize.ShloMosaic.ValueIdx

/-- Entry (b, n, d) of the layer: the clipped double product times the row's mask entry. -/
def entry (x : (⟨3, ![8, 2048, 512]⟩ : Shape).Idx → EReal) (a : (⟨3, ![8, 2048, 2048]⟩ : Shape).Idx → EReal)
    (k : (⟨2, ![512, 512]⟩ : Shape).Idx → EReal) (mask : (⟨3, ![8, 2048, 1]⟩ : Shape).Idx → EReal)
    (b : Fin 8) (n : Fin 2048) (d : Fin 512) : EReal :=
  max (∑ f : Fin 512, (∑ p : Fin 2048, a (ix3 b n p) * x (ix3 b p f)) * k (ix2 f d)) (Ideal.ofBits .f32 0x00000000#32)
    * mask (ix3 b n (0 : Fin 1))

/-- The layer as one array: its entry at every index. -/
def layer (x : (⟨3, ![8, 2048, 512]⟩ : Shape).Idx → EReal) (a : (⟨3, ![8, 2048, 2048]⟩ : Shape).Idx → EReal)
    (k : (⟨2, ![512, 512]⟩ : Shape).Idx → EReal) (mask : (⟨3, ![8, 2048, 1]⟩ : Shape).Idx → EReal) :
    (⟨3, ![8, 2048, 512]⟩ : Shape).Idx → EReal :=
  fun i => entry x a k mask (i 0) (i 1) (i 2)

/-- The layer at an index given by its coordinates. -/
theorem layer_ix3 (x : (⟨3, ![8, 2048, 512]⟩ : Shape).Idx → EReal) (a : (⟨3, ![8, 2048, 2048]⟩ : Shape).Idx → EReal)
    (k : (⟨2, ![512, 512]⟩ : Shape).Idx → EReal) (mask : (⟨3, ![8, 2048, 1]⟩ : Shape).Idx → EReal)
    (b : Fin 8) (n : Fin 2048) (d : Fin 512) : layer x a k mask (ix3 b n d) = entry x a k mask b n d := rfl

end Cert.Gcn

end
-- ==== Proof.TileBody.lean ====
/-
  What the kernel body stores for one tile of 256 rows, read at an entry.

  The body loads a 256 × 2048 tile of the adjacency rows of one batch, that batch's whole 2048 × 512 feature
  matrix, the 512 × 512 weight matrix and the tile's 256 mask entries. It multiplies the adjacency tile by the
  features, multiplies the result by the weights, clips below at zero and scales each row by its mask entry. The
  changes of float format in between are the identity on the extended reals, and each product into a zero
  accumulator is the plain sum over the contracted coordinate. So entry (r, d) of the stored tile is
    max (Σ_f (Σ_p A(r, p) · X(p, f)) · K(f, d)) 0 · M(r).
  When the four loaded tiles are the matching pieces of whole arrays (rows 256·i … 256·i + 255 of batch b), that is
  the layer's entry (b, 256·i + r, d).
-/
import proofs.«157015_j35467839930437_1_alg».proof.Proof.Gen.KernelIdeal.Skeleton
import proofs.«157015_j35467839930437_1_alg».proof.Proof.LibDenseLayer
import proofs.«157015_j35467839930437_1_alg».proof.Proof.GcnLayer
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- A column of `a` entries repeated along `b` columns reads, at (p, c), the column's entry p. -/
theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The adjacency tile times the features, read at (r, f). -/
theorem gather_apply (A : FVec Ideal S256x2048 .bf16) (X : FVec Ideal S2048x512 .bf16) (r : Fin 256) (f : Fin 512) :
    matmul dot_S256x2048_S2048x512_S256x512_1_0_0_1_n_n none A X (constant S256x512 .f32 0x00000000#32) (ix2 r f)
      = ∑ p : Fin 2048, A (ix2 r p) * X (ix2 p f) :=
  DenseLayer.matmul_rows_apply dot_S256x2048_S2048x512_S256x512_1_0_0_1_n_n_wf none A X r f

/-- The gathered tile times the weights, read at (r, d). -/
theorem mix_apply (T : FVec Ideal S256x512 .bf16) (K : FVec Ideal S512x512 .bf16) (r : Fin 256) (d : Fin 512) :
    matmul dot_S256x512_S512x512_S256x512_1_0_0_1_n_n none T K (constant S256x512 .f32 0x00000000#32) (ix2 r d)
      = ∑ f : Fin 512, T (ix2 r f) * K (ix2 f d) :=
  DenseLayer.matmul_rows_apply dot_S256x512_S512x512_S256x512_1_0_0_1_n_n_wf none T K r d

/-- Entry (r, d) of the tile the body stores, from the four loaded tiles. -/
theorem stored_apply (x0 : Vec Ideal S1x256x2048 .f32) (x1 : Vec Ideal S1x2048x512 .f32) (x2 : Vec Ideal S512x512 .f32)
    (x3 : Vec Ideal S1x256x1 .f32) (u : Fin 1) (r : Fin 256) (d : Fin 512) :
    k0_pay1 (F := Ideal) x0 x1 x2 x3 (ix3 u r d)
      = max (∑ f : Fin 512, (∑ p : Fin 2048, x0 (ix3 (0 : Fin 1) r p) * x1 (ix3 (0 : Fin 1) p f)) * x2 (ix2 f d))
          (Ideal.ofBits .f32 0x00000000#32) * x3 (ix3 (0 : Fin 1) r (0 : Fin 1)) := by
  unfold k0_pay1
  rw [shapeCast_ab_1ab_apply, mulf_apply, maximumf_apply, broadcast_apply, mix_apply, column_broadcast_apply,
    shapeCast_1ab_ab_apply]
  simp only [truncf_apply, gather_apply, shapeCast_1ab_ab_apply]
  rfl

end Cert.KernelIdeal.Tile

end
-- ==== Proof.KernelLayer.lean ====
/-
  The kernel's output array is the layer.

  The grid has 8 × 8 points; point (b, i) handles rows 256·i … 256·i + 255 of batch b. At that point the adjacency
  window holds those rows of batch b, the feature window the whole feature matrix of batch b, the weight window the
  whole weight matrix, the mask window those rows' mask entries, and the output window is written back to those rows
  of batch b. So what a point writes back is the matching block of the layer (the tile's entry (r, d) is the layer's
  entry (b, 256·i + r, d)), the 64 blocks tile the output array, and the array ends holding the layer. The mask array
  the region finds is what the host operations before it computed from the features.
-/
import proofs.«157015_j35467839930437_1_alg».proof.Proof.Gen.KernelIdeal.Value
import proofs.«157015_j35467839930437_1_alg».proof.Proof.TileBody
import proofs.«157015_j35467839930437_1_alg».proof.Proof.GcnLayer
import Idealize.ShloMosaic.Lib.Pipeline.Value
import Idealize.ShloMosaic.Lib.StableHlo.Run
import Idealize.ShloMosaic.Lib.ValueIdx

noncomputable section

namespace Cert.KernelIdeal.Layer

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The features as the region finds them. -/
abbrev feats (c : Dev nD) : S8x2048x512.Idx → EReal := V m c main_arg0
/-- The adjacency as the region finds it. -/
abbrev adj (c : Dev nD) : S8x2048x2048.Idx → EReal := V m c main_arg1
/-- The weights as the region finds them. -/
abbrev weights (c : Dev nD) : S512x512.Idx → EReal := V m c main_arg2
/-- The row mask as the region finds it. -/
abbrev mask (c : Dev nD) : S8x2048x1.Idx → EReal := V m c main_v7

/-- The layer of the arrays the region finds. -/
def whole (c : Dev nD) : S8x2048x512.Idx → EReal := Cert.Gcn.layer (feats m c) (adj m c) (weights m c) (mask m c)

/-- The row mask as the host operations before the launch compute it from the features: a row's count of
    non-zero entries, compared with zero, as a float. -/
def rowMask (x : (⟨S8x2048x512, .f32⟩ : BufTy).Contents (Elt Ideal)) : (⟨S8x2048x1, .f32⟩ : BufTy).Contents (Elt Ideal) :=
  uitofp (F := Ideal) .f32 (cmpf (F := Ideal) .ogt (broadcastInDim S8x2048x1 ![0, 1] bcast_S8x2048_S8x2048x1_0_1
    (Host.reduceAdd (uitofp (F := Ideal) .f32 (cmpf (F := Ideal) .une x (broadcastInDim S8x2048x512 ![] bcast_S_S8x2048x512
      (constant (F := Ideal) S_ .f32 0x00000000#32)))) (constant (F := Ideal) S_ .f32 0x00000000#32) reducesTo_S8x2048x512_S8x2048_d2 h_S_))
    (broadcastInDim S8x2048x1 ![] bcast_S_S8x2048x1 (constant (F := Ideal) S_ .f32 0x00000000#32)))

/-- The mask array the region finds is the row mask of the launched features. -/
theorem mask_eq (c : Dev nD) : mask m c = rowMask (m ((c : Thread nD τ).loc main_arg0)) := by
  dsimp only [mask, Gen.V, Gen.hostOps0]
  after_results
  rfl

/-! ## The index maps over the grid -/

theorem zero3 : (![0, 0, 0] : Fin 3 → Nat) = fun _ => 0 := funext fun a => by fin_cases a <;> rfl
theorem zero2 : (![0, 0] : Fin 2 → Nat) = fun _ => 0 := funext fun a => by fin_cases a <;> rfl

/-- At every point the adjacency and mask windows sit at the output window's batch and row-tile, the feature window at
    its batch, the weight window at the origin; the output's batch and row-tile are below 8. -/
theorem index_maps : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) < 8 ∧ win0_4.index t (1 : Fin 3) < 8 ∧ win0_4.index t (2 : Fin 3) = 0 :=
  (by decide +kernel : ∀ t : Fin grid0.N, _)

/-- Every (batch, row-tile) pair is some point's. -/
theorem index_onto : ∀ (b i : Fin 8), ∃ t : Fin cfg0.N, win0_4.index t = ![b.val, i.val, 0] :=
  (by decide +kernel : ∀ (b i : Fin 8), ∃ t : Fin grid0.N, win0_4.index t = ![b.val, i.val, 0])

/-! ## What a point writes back -/

/-- Point `t` writes back block `t` of the layer. -/
theorem flushed_eq (c : Dev nD) (t : Fin cfg0.N) :
    (dats m 0 c).flushed 4 t = ((cfg0.win 4).blk t).view.read (Elt Ideal) (whole m c) := by
  rw [Value.flushed4]
  unfold out0_4
  rw [View.canon_unit_zero zero3]
  simp only [View.ld_unit_zero (S := S1x256x2048) zero3, View.ld_unit_zero (S := S1x2048x512) zero3,
    View.ld_unit_zero (S := S512x512) zero2, View.ld_unit_zero (S := S1x256x1) zero3]
  obtain ⟨a0, a1, a2, f0, f1, f2, k0, k1, m0, m1, m2, hb, hi, o2⟩ := index_maps t
  funext j
  obtain ⟨u, r, d, rfl⟩ : ∃ (u : Fin 1) (r : Fin 256) (d : Fin 512), j = ix3 u r d := ⟨j 0, j 1, j 2, eq_ix3 j⟩
  have hr : r.val < 256 := r.isLt
  have hn : win0_4.index t (1 : Fin 3) * 256 + r.val < 2048 := by omega
  have hout : ((cfg0.win 4).blk t).view.emb (ix3 u r d)
      = ix3 (⟨win0_4.index t (0 : Fin 3), hb⟩ : Fin 8) (⟨win0_4.index t (1 : Fin 3) * 256 + r.val, hn⟩ : Fin 2048) d := by
    funext a; apply Fin.ext
    match a with
    | ⟨0, _⟩ => show win0_4.index t (0 : Fin 3) * 1 + 1 * u.val = win0_4.index t (0 : Fin 3); omega
    | ⟨1, _⟩ => show win0_4.index t (1 : Fin 3) * 256 + 1 * r.val = win0_4.index t (1 : Fin 3) * 256 + r.val; omega
    | ⟨2, _⟩ => show win0_4.index t (2 : Fin 3) * 512 + 1 * d.val = d.val; omega
  show k0_pay1 (iblk m c 0 t) (iblk m c 1 t) (iblk m c 2 t) (iblk m c 3 t) (ix3 u r d)
    = whole m c (((cfg0.win 4).blk t).view.emb (ix3 u r d))
  rw [hout]
  refine (Tile.stored_apply (iblk m c 0 t) (iblk m c 1 t) (iblk m c 2 t) (iblk m c 3 t) u r d).trans ?_
  show _ = Cert.Gcn.entry (feats m c) (adj m c) (weights m c) (mask m c)
    (⟨win0_4.index t (0 : Fin 3), hb⟩ : Fin 8) (⟨win0_4.index t (1 : Fin 3) * 256 + r.val, hn⟩ : Fin 2048) d
  unfold Cert.Gcn.entry
  refine congrArg₂ (· * ·) (congrArg₂ max (Finset.sum_congr rfl fun f _ => congrArg₂ (· * ·)
    (Finset.sum_congr rfl fun p _ => congrArg₂ (· * ·) ?_ ?_) ?_) rfl) ?_
  · -- the adjacency tile's entry (r, p) is the adjacency at (b, 256·i + r, p)
    show V m c main_arg1 (((cfg0.win 0).blk t).view.emb (ix3 (0 : Fin 1) r p)) = V m c main_arg1 _
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 256 + 1 * r.val = win0_4.index t (1 : Fin 3) * 256 + r.val; omega
    | ⟨2, _⟩ => show win0_0.index t (2 : Fin 3) * 2048 + 1 * p.val = p.val; omega
  · -- the feature tile's entry (p, f) is the features at (b, p, f)
    show V m c main_arg0 (((cfg0.win 1).blk t).view.emb (ix3 (0 : Fin 1) p f)) = V m c main_arg0 _
    refine congrArg _ (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * p.val = p.val; omega
    | ⟨2, _⟩ => show win0_1.index t (2 : Fin 3) * 512 + 1 * f.val = f.val; omega
  · -- the weight window is the whole weight matrix
    show V m c main_arg2 (((cfg0.win 2).blk t).view.emb (ix2 f d)) = V m c main_arg2 _
    refine congrArg _ (funext fun a => Fin.ext ?_)
    match a with
    | ⟨0, _⟩ => show win0_2.index t (0 : Fin 2) * 512 + 1 * f.val = f.val; omega
    | ⟨1, _⟩ => show win0_2.index t (1 : Fin 2) * 512 + 1 * d.val = d.val; omega
  · -- the mask tile's entry r is the mask at (b, 256·i + r, 0)
    show V m c main_v7 (((cfg0.win 3).blk t).view.emb (ix3 (0 : Fin 1) r (0 : Fin 1))) = V m c main_v7 _
    refine congrArg _ (funext fun a => Fin.ext ?_)
    match a with
    | ⟨0, _⟩ => show win0_3.index t (0 : Fin 3) * 1 + 1 * 0 = win0_4.index t (0 : Fin 3); omega
    | ⟨1, _⟩ => show win0_3.index t (1 : Fin 3) * 256 + 1 * r.val = win0_4.index t (1 : Fin 3) * 256 + r.val; omega
    | ⟨2, _⟩ => show win0_3.index t (2 : Fin 3) * 1 + 1 * 0 = 0; omega

/-! ## The blocks tile the output array -/

/-- An index of the output array is in point `t`'s block iff each coordinate is in the block's range on its axis. -/
theorem mem_blk (t : Fin cfg0.N) (i : S8x2048x512.Idx) :
    i ∈ ((cfg0.win 4).blk t).view.set ↔ ∀ a : Fin 3, win0_4.index t a * S1x256x512.size a ≤ (i a).val
      ∧ (i a).val < win0_4.index t a * S1x256x512.size a + S1x256x512.size a := by
  show i ∈ ((View.whole main_v8).slice (win0_4.rect t)).set ↔ _
  rw [View.set_slice_whole, Rect.mem_set_unit]
  exact Iff.rfl

/-- Every index (b, n, d) of the output array is in the block of the point at batch b and row-tile n / 256. -/
theorem cover (i : S8x2048x512.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 512 := (i 2).isLt
  obtain ⟨t, ht⟩ := index_onto ⟨(i 0).val, h0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 512 ≤ (i 2).val ∧ (i 2).val < win0_4.index t (2 : Fin 3) * 512 + 512
    omega

/-- The output array after the run is the layer of the arrays the region finds. -/
theorem final (c : Dev nD) : (dats m 0 c).arrAt 4 cfg0.N = whole m c :=
  (dats m 0 c).arrAt_eq_of_cover 4 (whole m c) (fun t _ => flushed_eq m c t) cover

/-- … which is the layer of the launched arguments, with the row mask of the launched features. -/
theorem whole_eq (c : Dev nD) :
    whole m c = Cert.Gcn.layer (m ((c : Thread nD τ).loc main_arg0)) (m ((c : Thread nD τ).loc main_arg1))
      (m ((c : Thread nD τ).loc main_arg2)) (rowMask (m ((c : Thread nD τ).loc main_arg0))) := by
  have e0 : feats m c = m ((c : Thread nD τ).loc main_arg0) := V_main_arg0 m c
  have e1 : adj m c = m ((c : Thread nD τ).loc main_arg1) := V_main_arg1 m c
  have e2 : weights m c = m ((c : Thread nD τ).loc main_arg2) := V_main_arg2 m c
  unfold whole
  rw [e0, e1, e2, mask_eq]

/-! ## The run, read -/

/-- Every weakly fair execution of the kernel program ends with the output array at the layer of the launched
    arguments, and the arguments unchanged. -/
theorem run : θ_run defs (onTc (τ := τ) (main (F := Ideal))) ⟨m, fun _ => 0, ρ⟩ fun r => ∀ c : Dev nD,
      r.2.mem ((c : Thread nD τ).loc main_v8)
        = Cert.Gcn.layer (m ((c : Thread nD τ).loc main_arg0)) (m ((c : Thread nD τ).loc main_arg1))
            (m ((c : Thread nD τ).loc main_arg2)) (rowMask (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (final m c)).trans (whole_eq m c), (h c).2⟩)
    (Value.run_blocks m ρ)

end Cert.KernelIdeal.Layer

end
-- ==== Proof.ReferenceLayer.lean ====
/-
  The reference computes the layer.

  The reference takes the batched product of the adjacency with the features (batch axis 0, contracting the
  adjacency's last axis with the features' node axis), multiplies the result by the weights (contracting the feature
  axis), clips below at zero, and multiplies by the row mask repeated along the output features. Read at (b, n, d):
  the second product's left operand is read at (b, n, f), the first product's operands at (b, n, p) and (b, p, f),
  the weights at (f, d), and the repeated mask at (b, n, 0). That is the layer's entry, sum for sum.
-/
import proofs.«157015_j35467839930437_1_alg».proof.Proof.RefReadPatched
import proofs.«157015_j35467839930437_1_alg».proof.Proof.GcnLayer

noncomputable section

namespace Cert.ReferenceIdeal.Layer

open Cert.ReferenceIdeal Cert.ReferenceIdeal.ReadP Idealize.ShloMosaic Idealize.ShloMosaic.ValueIdx

/-- Where the first product reads the adjacency for entry (b, n, d), feature f, neighbour p: at (b, n, p). -/
theorem adjacency_idx (b : Fin 8) (n : Fin 2048) (d f : Fin 512) (p : Fin 2048) :
    lidx_main_v0 (lidx_main_v1 (ix3 b n d) f) p = ix3 b n p :=
  funext fun a => by match a with | ⟨0, _⟩ => rfl | ⟨1, _⟩ => rfl | ⟨2, _⟩ => rfl

/-- Where it reads the features: at (b, p, f). -/
theorem features_idx (b : Fin 8) (n : Fin 2048) (d f : Fin 512) (p : Fin 2048) :
    ridx_main_v0 (lidx_main_v1 (ix3 b n d) f) p = ix3 b p f :=
  funext fun a => by match a with | ⟨0, _⟩ => rfl | ⟨1, _⟩ => rfl | ⟨2, _⟩ => rfl

/-- Where the second product reads the weights: at (f, d). -/
theorem weights_idx (b : Fin 8) (n : Fin 2048) (d f : Fin 512) :
    ridx_main_v1 (ix3 b n d) f = ix2 f d :=
  funext fun a => by match a with | ⟨0, _⟩ => rfl | ⟨1, _⟩ => rfl

/-- Where the repeated mask is read: at (b, n, 0). -/
theorem mask_idx (b : Fin 8) (n : Fin 2048) (d : Fin 512) :
    idx_main_v11 (ix3 b n d) = ix3 b n (0 : Fin 1) :=
  funext fun a => by match a with | ⟨0, _⟩ => rfl | ⟨1, _⟩ => rfl | ⟨2, _⟩ => rfl

/-- The reference's result is the layer of its three arguments and of the row mask it computes from the features. -/
theorem result_eq (x0 : (⟨S8x2048x512, .f32⟩ : BufTy).Contents (Elt Ideal)) (x1 : (⟨S8x2048x2048, .f32⟩ : BufTy).Contents (Elt Ideal))
    (x2 : (⟨S512x512, .f32⟩ : BufTy).Contents (Elt Ideal)) :
    val_main_v12 (F := Ideal) x0 x1 x2 = Cert.Gcn.layer x0 x1 x2 (val_main_v10 (F := Ideal) x0) := by
  funext i
  obtain ⟨b, n, d, rfl⟩ : ∃ (b : Fin 8) (n : Fin 2048) (d : Fin 512), i = ix3 b n d := ⟨i 0, i 1, i 2, eq_ix3 i⟩
  rw [Cert.Gcn.layer_ix3, val_main_v12_apply, val_main_v2_apply, val_main_v1_apply, val_main_call0_v0_apply,
    val_main_call0_cst_apply, val_main_v11_apply, mask_idx]
  simp only [val_main_v0_apply, adjacency_idx, features_idx, weights_idx]
  rfl

end Cert.ReferenceIdeal.Layer

end
-- ==== Proof.lean ====
/-
  A graph-convolution layer, tiled by rows, against its whole-array form.

  Both programs compute, for a batch b, a node n and an output feature d,
    max (Σ_f (Σ_p a(b, n, p) · x(b, p, f)) · k(f, d)) 0 · mask(b, n),
  where mask(b, n) is one when row (b, n) of x has a non-zero entry and zero otherwise. The reference does it with two
  whole-array products; the kernel walks an 8 × 8 grid of (batch, tile of 256 rows), doing both products for one tile
  of rows at a time, with the mask computed beforehand by the same operations the reference uses. On the extended
  reals the changes of float format between the kernel's products are the identity and every product is the plain
  sum over its contracted coordinate, so the two results agree entry by entry with nothing regrouped: no law of
  arithmetic beyond that reading is used, and finiteness of the inputs is never needed.

  The kernel's array after the run is read off its generated frame run (each point writes back its block of the
  layer; the 64 blocks tile the array), the reference's off its run read one operation at a time. The two masks are
  the same term up to the proofs of the shape side conditions, which are propositions.
-/
import proofs.«157015_j35467839930437_1_alg».proof.Defs
import proofs.«157015_j35467839930437_1_alg».proof.Proof.Gen.Kernel
import proofs.«157015_j35467839930437_1_alg».proof.Proof.Gen.Kernel.Skeleton
import proofs.«157015_j35467839930437_1_alg».proof.Proof.Gen.Kernel.Launch
import proofs.«157015_j35467839930437_1_alg».proof.Proof.Gen.Kernel.Points
import proofs.«157015_j35467839930437_1_alg».proof.Proof.Gen.Kernel.Frame
import proofs.«157015_j35467839930437_1_alg».proof.Proof.Gen.KernelIdeal
import proofs.«157015_j35467839930437_1_alg».proof.Proof.Gen.KernelIdeal.Skeleton
import proofs.«157015_j35467839930437_1_alg».proof.Proof.Gen.KernelIdeal.Launch
import proofs.«157015_j35467839930437_1_alg».proof.Proof.Gen.KernelIdeal.Points
import proofs.«157015_j35467839930437_1_alg».proof.Proof.Gen.KernelIdeal.Frame
import proofs.«157015_j35467839930437_1_alg».proof.Proof.Gen.ReferenceIdeal
import proofs.«157015_j35467839930437_1_alg».proof.Proof.Gen.Pre_finite_inputs
import proofs.«157015_j35467839930437_1_alg».proof.Proof.Gen.KernelIdeal.Value
import proofs.«157015_j35467839930437_1_alg».proof.Proof.RefRunPatched
import proofs.«157015_j35467839930437_1_alg».proof.Proof.RefReadPatched
import proofs.«157015_j35467839930437_1_alg».proof.Proof.KernelLayer
import proofs.«157015_j35467839930437_1_alg».proof.Proof.ReferenceLayer
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The row mask the kernel program computes before its launch and the one the reference computes are the same
    operations of the features. -/
theorem mask_same (x : (⟨Cert.ReferenceIdeal.S8x2048x512, .f32⟩ : BufTy).Contents (Elt Ideal)) :
    Cert.ReferenceIdeal.ReadP.val_main_v10 (F := Ideal) x = Cert.KernelIdeal.Layer.rowMask x := rfl

/-- From memories that agree on the three arguments both programs end with the layer of those arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v12_eq, Cert.ReferenceIdeal.Layer.result_eq, mask_same,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
